-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S2x800000 32 := broadcastInDim S2x800000 ![] bcast_S_S2x800000 main_c_20
  let main_v55 : IVec S2x800000 1 := cmpi .sge main_arg1 main_v54
  let main_c_21 : IVec S_ 1 := constantI S_ 1 1#1
  let main_v56 : IVec S_ 1 := (fun x v => Host.reduce IntOp.andi x v reducesTo_S2x800000_S_d0_1 h_S_) main_v55 main_c_21
  let main_v57 : IVec S_ 1 := andi main_v53 main_v56
  let main_c_22 : IVec S_ 32 := constantI S_ 32 50000#32
  let main_v58 : IVec S2x800000 32 := broadcastInDim S2x800000 ![] bcast_S_S2x800000 main_c_22
  let main_v59 : IVec S2x800000 1 := cmpi .slt main_arg1 main_v58
  let main_c_23 : IVec S_ 1 := constantI S_ 1 1#1
  let main_v60 : IVec S_ 1 := (fun x v => Host.reduce IntOp.andi x v reducesTo_S2x800000_S_d0_1 h_S_) main_v59 main_c_23
  let main_v61 : IVec S_ 1 := andi main_v57 main_v60
  main_v61

def fn_part2 {F : FTy → Type} [FloatOps F] (main_arg1 : IVec S2x800000 32) (main_arg8 : FVec F S256x128 .f32) (main_arg9 : FVec F S128 .f32) (main_arg10 : FVec F S128x128 .f32) (main_arg11 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x800000 32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S4000x128 : Shape := ⟨2, ![4000, 128]⟩
abbrev S1x128 : Shape := ⟨2, ![1, 128]⟩
abbrev S5000x128 : Shape := ⟨2, ![5000, 128]⟩

abbrev nBuf : Space → Nat
  | .hbm => 72
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x128, .f32⟩
  | .hbm, ⟨35, _⟩ => ⟨S800000x128, .i1⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x128, .f32⟩
  | .hbm, ⟨58, _⟩ => ⟨S800000x128, .i1⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S128x128, .f32⟩
  | .hbm, ⟨63, _⟩ => ⟨S128x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S128x128, .f32⟩
  | .hbm, ⟨70, _⟩ => ⟨S128x128, .f32⟩
  | .hbm, ⟨71, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S4000x128, .f32⟩
  | .local _ .vmem, ⟨12, _⟩ => ⟨S4000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S800000x128.size a
  hwx0_9 : ∀ i : grid0.Coords, EltTy.bits .f32 = 32 ∨ (Rect.block (s := S800000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000x256 : Shape := ⟨2, ![50000, 256]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x256, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S1x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x256, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call2_cst : Ref sig .tc := ⟨.hbm, 62, rfl⟩
abbrev main_call2_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layers.lean ====
/-
  The two multilayer perceptrons of one round of message passing, written row by row over the extended reals.

  A dense layer sends a row `x` of 128 entries to `x · W + b`; the first layer of each perceptron takes TWO rows,
  `x` and `y`, against two 128 × 128 weight blocks: `x · Wa + y · Wb + b`, which is what the product of the
  256-entry row `[x, y]` with the stacked 256 × 128 matrix `[Wa; Wb]` is, the sum over 256 positions split at
  position 128. The rectifier is `max · 0`. The edge perceptron is three layers (rectified after the first two),
  the node perceptron two (rectified after the first). Nothing here needs a finite entry: sums and products of
  extended reals are only ever regrouped, never distributed or cancelled.
-/
import Idealize.ShloMosaic.PureOps.Ideal
import Idealize.ShloMosaic.Lib.ValueIdx

noncomputable section

namespace Cert.Layers

open Idealize.ShloMosaic Idealize.ShloMosaic.ValueIdx

/-- A 128 × 128 weight block, a 256 × 128 stacked weight matrix and a bias row, as index functions. -/
abbrev Mat128 : Type := (⟨2, ![128, 128]⟩ : Shape).Idx → EReal
abbrev Mat256 : Type := (⟨2, ![256, 128]⟩ : Shape).Idx → EReal
abbrev Bias : Type := (⟨1, ![128]⟩ : Shape).Idx → EReal
/-- An array of `n` rows of 128 entries. -/
abbrev Rows (n : Nat) : Type := (⟨2, ![n, 128]⟩ : Shape).Idx → EReal

/-- Row `r` of an array of rows. -/
def row {n : Nat} (A : Rows n) (r : Fin n) : Fin 128 → EReal := fun k => A (ix2 r k)

/-- The upper and the lower 128 × 128 block of a stacked 256 × 128 matrix. -/
def upper (W : Mat256) : Mat128 := fun i => W (ix2 ⟨(i 0).val, by have := idx2_lt0 i; omega⟩ ⟨(i 1).val, idx2_lt1 i⟩)
def lower (W : Mat256) : Mat128 := fun i => W (ix2 ⟨128 + (i 0).val, by have := idx2_lt0 i; omega⟩ ⟨(i 1).val, idx2_lt1 i⟩)

/-- Column `q` of `x · W + b`. -/
def dense (x : Fin 128 → EReal) (W : Mat128) (b : Bias) (q : Fin 128) : EReal :=
  (∑ k : Fin 128, x k * W (ix2 k q)) + b (ix1 q)

/-- Column `q` of `x · Wa + y · Wb + b`. -/
def dense2 (x y : Fin 128 → EReal) (Wa Wb : Mat128) (b : Bias) (q : Fin 128) : EReal :=
  ((∑ k : Fin 128, x k * Wa (ix2 k q)) + ∑ k : Fin 128, y k * Wb (ix2 k q)) + b (ix1 q)

/-- The rectifier, entry by entry. -/
def relu (f : Fin 128 → EReal) : Fin 128 → EReal := fun k => max (f k) 0

/-- The edge perceptron on one edge: the source row `x` and the destination row `y` to the message row. -/
def edgeRow (x y : Fin 128 → EReal) (Wa Wb : Mat128) (b1 : Bias) (W2 : Mat128) (b2 : Bias) (W3 : Mat128) (b3 : Bias) :
    Fin 128 → EReal :=
  dense (relu (dense (relu (dense2 x y Wa Wb b1)) W2 b2)) W3 b3

/-- The node perceptron on one node: its feature row `x` and its aggregated messages `a` to the output row. -/
def nodeRow (x a : Fin 128 → EReal) (Wa Wb : Mat128) (b1 : Bias) (W2 : Mat128) (b2 : Bias) : Fin 128 → EReal :=
  dense (relu (dense2 x a Wa Wb b1)) W2 b2

/-- All edges' messages: the edge perceptron on each pair of gathered rows. -/
def edgeMsg {n : Nat} (hs hd : Rows n) (Wa Wb : Mat128) (b1 : Bias) (W2 : Mat128) (b2 : Bias) (W3 : Mat128) (b3 : Bias) :
    Rows n :=
  fun i => edgeRow (row hs (i 0)) (row hd (i 0)) Wa Wb b1 W2 b2 W3 b3 (i 1)

/-- All nodes' outputs: the node perceptron on each node's features and aggregate. -/
def nodeOut {n : Nat} (h agg : Rows n) (Wa Wb : Mat128) (b1 : Bias) (W2 : Mat128) (b2 : Bias) : Rows n :=
  fun i => nodeRow (row h (i 0)) (row agg (i 0)) Wa Wb b1 W2 b2 (i 1)

theorem edgeMsg_apply {n : Nat} (hs hd : Rows n) (Wa Wb : Mat128) (b1 : Bias) (W2 : Mat128) (b2 : Bias) (W3 : Mat128) (b3 : Bias)
    (r : Fin n) (q : Fin 128) :
    edgeMsg hs hd Wa Wb b1 W2 b2 W3 b3 (ix2 r q) = edgeRow (row hs r) (row hd r) Wa Wb b1 W2 b2 W3 b3 q := rfl

theorem nodeOut_apply {n : Nat} (h agg : Rows n) (Wa Wb : Mat128) (b1 : Bias) (W2 : Mat128) (b2 : Bias) (r : Fin n) (q : Fin 128) :
    nodeOut h agg Wa Wb b1 W2 b2 (ix2 r q) = nodeRow (row h r) (row agg r) Wa Wb b1 W2 b2 q := rfl

/-- A sum over 256 positions is the sum over the first 128 plus the sum over the last 128. -/
theorem sum_split (f : Fin 256 → EReal) :
    ∑ k : Fin 256, f k = (∑ k : Fin 128, f ⟨k.val, by have := k.isLt; omega⟩) + ∑ k : Fin 128, f ⟨128 + k.val, by have := k.isLt; omega⟩ :=
  Fin.sum_univ_add (a := 128) (b := 128) f

end Cert.Layers

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibConcatCols.lean ====
/-
  Two arrays of rows laid side by side, read at an entry.

  Joining an n × w₁ array and an n × w₂ array along the column axis gives an n × w array whose entry (r, k) is the
  first array's entry (r, k) for k < w₁ and the second array's entry (r, k − w₁) from column w₁ on.
-/
import Idealize.ShloMosaic.Lib.Pipeline.Value
import Idealize.ShloMosaic.Lib.ValueIdx

noncomputable section

namespace Cert.LibConcatCols

open Idealize.ShloMosaic Idealize.ShloMosaic.ValueIdx

variable {α : Type} {n w₁ w₂ w : Nat}

/-- A column of the joined array left of the seam is the first array's column. -/
theorem concat_left (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₁) (hk : k.val < w) :
    concatenate ⟨2, ![n, w]⟩ 1 [⟨⟨2, ![n, w₁]⟩, x⟩, ⟨⟨2, ![n, w₂]⟩, y⟩] h (ix2 r ⟨k.val, hk⟩) = x (ix2 r k) :=
  concatenate_pair_apply_left 1 x y h (ix2 r ⟨k.val, hk⟩) rfl (ix2 r k) (fun b => match b with
    | ⟨0, _⟩ => rfl
    | ⟨1, _⟩ => rfl)

/-- A column of the joined array from the seam on is the second array's column, the first array's width less. -/
theorem concat_right (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₂) (hk : w₁ + k.val < w) :
    concatenate ⟨2, ![n, w]⟩ 1 [⟨⟨2, ![n, w₁]⟩, x⟩, ⟨⟨2, ![n, w₂]⟩, y⟩] h (ix2 r ⟨w₁ + k.val, hk⟩) = y (ix2 r k) :=
  concatenate_pair_apply_right 1 x y h (ix2 r ⟨w₁ + k.val, hk⟩) rfl rfl (ix2 r k) (fun b hb => match b, hb with
    | ⟨0, _⟩, _ => rfl
    | ⟨1, _⟩, hb => absurd rfl hb) (by show k.val + w₁ = w₁ + k.val; omega)

end Cert.LibConcatCols

end
-- ==== Proof.LibDense.lean ====
/-
  Dense layers as vector operations, read row by row at the ideal values.

  A kernel computes a dense layer on a block of rows as a matrix product into a zero accumulator plus the bias row
  broadcast over the block; its rectifier is the maximum with a broadcast zero. Read at row `r` and column `q` these
  are `Layers.dense` and `Layers.relu` of row `r`, whatever the number of rows. The host writes the same layer as
  a `dot_general` plus the bias broadcast in two steps, and a first layer on a pair of rows as ONE product of the two
  arrays laid side by side with the stacked 256 × 128 matrix: the sum over 256 columns splits at the seam into the two
  sums over 128, the left against the matrix's upper half and the right against its lower half.
-/
import proofs.«408097_j32521492365734_1_alg».proof.Proof.Layers
import proofs.«408097_j32521492365734_1_alg».proof.Proof.LibPlainDot
import proofs.«408097_j32521492365734_1_alg».proof.Proof.LibConcatCols
import Idealize.ShloMosaic.Lib.ValueLayout

noncomputable section

namespace Cert.LibDense

open Idealize.ShloMosaic Idealize.ShloMosaic.ValueIdx Cert.Layers

variable {n : Nat}

/-- A bias row cast to one row and broadcast over `n` rows reads the bias at the column. -/
theorem bias_rows (b : (⟨1, ![128]⟩ : Shape).Idx → EReal) (h1 : (⟨1, ![128]⟩ : Shape).ShapeCasts ⟨2, ![1, 128]⟩)
    (h2 : (⟨2, ![1, 128]⟩ : Shape).Broadcasts ⟨2, ![n, 128]⟩) (r : Fin n) (q : Fin 128) :
    broadcastTo ⟨2, ![n, 128]⟩ (shapeCast ⟨2, ![1, 128]⟩ b h1) h2 (ix2 r q) = b (ix1 q) := by
  rw [broadcastTo_1b_ab_apply, shapeCast_a_1a_apply]

/-- The matrix product of a block of rows with a weight block, into zero, plus the broadcast bias: a dense layer. -/
theorem matmul_bias {φ₁ φ₂ : FTy} (d : DotDims ⟨2, ![n, 128]⟩ ⟨2, ![128, 128]⟩ ⟨2, ![n, 128]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, 128]⟩ φ₁) (W : FVec Ideal ⟨2, ![128, 128]⟩ φ₂) (b : FVec Ideal ⟨1, ![128]⟩ .f32)
    (h1 : (⟨1, ![128]⟩ : Shape).ShapeCasts ⟨2, ![1, 128]⟩) (h2 : (⟨2, ![1, 128]⟩ : Shape).Broadcasts ⟨2, ![n, 128]⟩)
    (r : Fin n) (q : Fin 128) :
    addf (matmul d none X W (constant ⟨2, ![n, 128]⟩ .f32 0x00000000#32)) (broadcastTo ⟨2, ![n, 128]⟩ (shapeCast ⟨2, ![1, 128]⟩ b h1) h2) (ix2 r q)
      = dense (row X r) W b q := by
  show FloatOps.matmul d none X W (constant ⟨2, ![n, 128]⟩ .f32 0x00000000#32) (ix2 r q) + broadcastTo ⟨2, ![n, 128]⟩ (shapeCast ⟨2, ![1, 128]⟩ b h1) h2 (ix2 r q) = _
  rw [LibPlainDot.matmul_zero_apply d hlc hrc hln hrn hlb hrb, bias_rows]
  rfl

/-- Two such products added, plus the broadcast bias: the first layer on a pair of rows. -/
theorem matmul2_bias {φ₁ φ₂ : FTy} (d : DotDims ⟨2, ![n, 128]⟩ ⟨2, ![128, 128]⟩ ⟨2, ![n, 128]⟩)
    (hlc : d.lhsContracting = [1]) (hrc : d.rhsContracting = [0])
    (hln : d.lhsNonContracting = [0]) (hrn : d.rhsNonContracting = [1])
    (hlb : d.lhsBatch = []) (hrb : d.rhsBatch = [])
    (X Y : FVec Ideal ⟨2, ![n, 128]⟩ φ₁) (Wa Wb : FVec Ideal ⟨2, ![128, 128]⟩ φ₂) (b : FVec Ideal ⟨1, ![128]⟩ .f32)
    (h1 : (⟨1, ![128]⟩ : Shape).ShapeCasts ⟨2, ![1, 128]⟩) (h2 : (⟨2, ![1, 128]⟩ : Shape).Broadcasts ⟨2, ![n, 128]⟩)
    (r : Fin n) (q : Fin 128) :
    addf (addf (matmul d none X Wa (constant ⟨2, ![n, 128]⟩ .f32 0x00000000#32)) (matmul d none Y Wb (constant ⟨2, ![n, 128]⟩ .f32 0x00000000#32)))
        (broadcastTo ⟨2, ![n, 128]⟩ (shapeCast ⟨2, ![1, 128]⟩ b h1) h2) (ix2 r q)
      = dense2 (row X r) (row Y r) Wa Wb b q := by
  show (FloatOps.matmul d none X Wa (constant ⟨2, ![n, 128]⟩ .f32 0x00000000#32) (ix2 r q)
      + FloatOps.matmul d none Y Wb (constant ⟨2, ![n, 128]⟩ .f32 0x00000000#32) (ix2 r q))
      + broadcastTo ⟨2, ![n, 128]⟩ (shapeCast ⟨2, ![1, 128]⟩ b h1) h2 (ix2 r q) = _
  rw [LibPlainDot.matmul_zero_apply d hlc hrc hln hrn hlb hrb, LibPlainDot.matmul_zero_apply d hlc hrc hln hrn hlb hrb, bias_rows]
  rfl

/-- The maximum with a broadcast zero is the rectifier. -/
theorem max_zero (Y : FVec Ideal ⟨2, ![n, 128]⟩ .f32) (r : Fin n) (q : Fin 128) :
    maximumf Y (broadcast ⟨2, ![n, 128]⟩ (Scalar.ofBits (F := Ideal) .f32 0x00000000#32)) (ix2 r q) = max (Y (ix2 r q)) 0 := by
  show max (Y (ix2 r q)) (Ideal.ofBits .f32 0x00000000#32) = _
  rw [Ideal.ofBits_zero_f32]

/-! ## The host's spelling -/

/-- A bias row broadcast to one row and then over `n` rows, the host's way, reads the bias at the column. -/
theorem bias_rows_host (b : (⟨1, ![128]⟩ : Shape).Idx → EReal)
    (h1 : (⟨1, ![128]⟩ : Shape).BroadcastsInDim ⟨2, ![1, 128]⟩ ![1])
    (h2 : (⟨2, ![1, 128]⟩ : Shape).BroadcastsInDim ⟨2, ![n, 128]⟩ ![0, 1]) (r : Fin n) (q : Fin 128) :
    broadcastInDim ⟨2, ![n, 128]⟩ ![0, 1] h2 (broadcastInDim ⟨2, ![1, 128]⟩ ![1] h1 b) (ix2 r q) = b (ix1 q) := by
  rw [broadcastInDim_apply ![0, 1] h2 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply ![1] h1 b (ix2 (0 : Fin 1) q) (ix1 q) (fun a => match a with
      | ⟨0, _⟩ => by show q.val = if (128 : Nat) = 1 then 0 else q.val; rw [if_neg (by decide)])]

/-- The host's `dot_general` of an array of rows with a weight block, plus the broadcast bias: a dense layer. -/
theorem dot_bias {φ₁ φ₂ : FTy} (d : DotDims ⟨2, ![n, 128]⟩ ⟨2, ![128, 128]⟩ ⟨2, ![n, 128]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, 128]⟩ φ₁) (W : FVec Ideal ⟨2, ![128, 128]⟩ φ₂) (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![n, 128]⟩ ![0, 1]) (r : Fin n) (q : Fin 128) :
    addf (Host.dotGeneral d none X W) (broadcastInDim ⟨2, ![n, 128]⟩ ![0, 1] h2 (broadcastInDim ⟨2, ![1, 128]⟩ ![1] h1 b)) (ix2 r q)
      = dense (row X r) W b q := by
  show FloatOps.dotGeneral d none .single X W (ix2 r q)
      + broadcastInDim ⟨2, ![n, 128]⟩ ![0, 1] h2 (broadcastInDim ⟨2, ![1, 128]⟩ ![1] h1 b) (ix2 r q) = _
  rw [LibPlainDot.dotGeneral_apply d hlc hrc hln hrn hlb hrb, bias_rows_host]
  rfl

/-- The host's first layer on a pair of rows: ONE product of the two arrays side by side with the stacked matrix,
    plus the broadcast bias, is the two-block dense layer with the matrix's upper and lower half. -/
theorem dot_concat_bias (d : DotDims ⟨2, ![n, 256]⟩ ⟨2, ![256, 128]⟩ ⟨2, ![n, 128]⟩)
    (hlc : d.lhsContracting = [1]) (hrc : d.rhsContracting = [0])
    (hln : d.lhsNonContracting = [0]) (hrn : d.rhsNonContracting = [1])
    (hlb : d.lhsBatch = []) (hrb : d.rhsBatch = [])
    (X Y : FVec Ideal ⟨2, ![n, 128]⟩ .f32) (W : FVec Ideal ⟨2, ![256, 128]⟩ .f32) (b : FVec Ideal ⟨1, ![128]⟩ .f32)
    (hc : Shape.Concatenates [(⟨2, ![n, 128]⟩ : Shape), ⟨2, ![n, 128]⟩] ⟨2, ![n, 256]⟩ 1)
    (h1 : (⟨1, ![128]⟩ : Shape).BroadcastsInDim ⟨2, ![1, 128]⟩ ![1])
    (h2 : (⟨2, ![1, 128]⟩ : Shape).BroadcastsInDim ⟨2, ![n, 128]⟩ ![0, 1]) (r : Fin n) (q : Fin 128) :
    addf (Host.dotGeneral d none (concatenate ⟨2, ![n, 256]⟩ 1 [⟨⟨2, ![n, 128]⟩, X⟩, ⟨⟨2, ![n, 128]⟩, Y⟩] hc) W)
        (broadcastInDim ⟨2, ![n, 128]⟩ ![0, 1] h2 (broadcastInDim ⟨2, ![1, 128]⟩ ![1] h1 b)) (ix2 r q)
      = dense2 (row X r) (row Y r) (upper W) (lower W) b q := by
  show FloatOps.dotGeneral d none .single (concatenate ⟨2, ![n, 256]⟩ 1 [⟨⟨2, ![n, 128]⟩, X⟩, ⟨⟨2, ![n, 128]⟩, Y⟩] hc) W (ix2 r q)
      + broadcastInDim ⟨2, ![n, 128]⟩ ![0, 1] h2 (broadcastInDim ⟨2, ![1, 128]⟩ ![1] h1 b) (ix2 r q) = _
  rw [LibPlainDot.dotGeneral_apply d hlc hrc hln hrn hlb hrb, bias_rows_host, sum_split]
  refine congrArg (· + b (ix1 q)) (congrArg₂ (· + ·) (Finset.sum_congr rfl fun k _ => ?_) (Finset.sum_congr rfl fun k _ => ?_))
  · rw [LibConcatCols.concat_left X Y hc r k (by have := k.isLt; omega)]; rfl
  · rw [LibConcatCols.concat_right X Y hc r k (by have := k.isLt; omega)]; rfl

/-- The host's rectifier: the maximum with a broadcast zero. -/
theorem max_zero_host (Y : FVec Ideal ⟨2, ![n, 128]⟩ .f32) (h : (⟨0, ![]⟩ : Shape).BroadcastsInDim ⟨2, ![n, 128]⟩ ![])
    (r : Fin n) (q : Fin 128) :
    maximumf Y (broadcastInDim ⟨2, ![n, 128]⟩ ![] h (constant (F := Ideal) ⟨0, ![]⟩ .f32 0x00000000#32)) (ix2 r q) = max (Y (ix2 r q)) 0 := by
  show max (Y (ix2 r q)) (Ideal.ofBits .f32 0x00000000#32) = _
  rw [Ideal.ofBits_zero_f32]

end Cert.LibDense

end
-- ==== Proof.Bodies.lean ====
/-
  What the two kernel bodies compute on a block of rows, at the ideal values.

  The edge kernel's stored value at row `r`, column `q` of its block is the edge perceptron of row `r` of its two
  row blocks (`Layers.edgeRow`); the node kernel's is the node perceptron of row `r` of its feature block and its
  aggregate block (`Layers.nodeRow`). Rounding the operands of a product to bf16 is the identity on extended
  reals, and a product into the zero accumulator is the plain sum of products, so each layer of a body is a
  `Layers.dense` (or `dense2`) of the rows and each `maximum` with a zero splat a `Layers.relu`.
-/
import proofs.«408097_j32521492365734_1_alg».proof.Proof.Gen.KernelIdeal.Skeleton
import proofs.«408097_j32521492365734_1_alg».proof.Proof.LibDense

noncomputable section

namespace Cert.KernelIdeal.Bodies

open Cert.KernelIdeal Cert.KernelIdeal.Gen Cert.Layers Cert.LibDense Idealize.ShloMosaic Idealize.ShloMosaic.ValueIdx

/-- The edge kernel's stored block, entry (r, q): three dense layers on the pair of rows `r`. -/
theorem edge_block (x0 x1 : Vec Ideal S4000x128 .f32) (x2 x3 : Vec Ideal S128x128 .f32) (x4 : Vec Ideal S128 .f32)
    (x5 : Vec Ideal S128x128 .f32) (x6 : Vec Ideal S128 .f32) (x7 : Vec Ideal S128x128 .f32) (x8 : Vec Ideal S128 .f32)
    (r : Fin 4000) (q : Fin 128) :
    k0_pay1 (F := Ideal) (k0_pay2 x0 x1 x2 x3 x4 x5 x6 x7) (k0_pay3 x8) (ix2 r q)
      = edgeRow (row x0 r) (row x1 r) x2 x3 x4 x5 x6 x7 x8 q := by
  unfold k0_pay1 k0_pay2 k0_pay3 edgeRow
  simp only [shapeCast_self]
  refine (matmul_bias dot_S4000x128_S128x128_S4000x128_1_0_0_1_n_n rfl rfl rfl rfl rfl rfl _ _ x8 _ _ r q).trans ?_
  refine congrArg (fun f => dense f x7 x8 q) (funext fun k => ?_)
  refine (max_zero _ r k).trans ?_
  refine congrArg (fun z => max z 0) ?_
  refine (matmul_bias dot_S4000x128_S128x128_S4000x128_1_0_0_1_n_n rfl rfl rfl rfl rfl rfl _ _ x6 _ _ r k).trans ?_
  refine congrArg (fun f => dense f x5 x6 k) (funext fun j => ?_)
  refine (max_zero _ r j).trans ?_
  refine congrArg (fun z => max z 0) ?_
  exact matmul2_bias dot_S4000x128_S128x128_S4000x128_1_0_0_1_n_n rfl rfl rfl rfl rfl rfl _ _ _ _ x4 _ _ r j

/-- The node kernel's stored block, entry (r, q): two dense layers on the pair of rows `r`. -/
theorem node_block (x0 x1 : Vec Ideal S5000x128 .f32) (x2 x3 : Vec Ideal S128x128 .f32) (x4 : Vec Ideal S128 .f32)
    (x5 : Vec Ideal S128x128 .f32) (x6 : Vec Ideal S128 .f32) (r : Fin 5000) (q : Fin 128) :
    k1_pay1 (F := Ideal) x0 x1 x2 x3 x4 x5 x6 (ix2 r q) = nodeRow (row x0 r) (row x1 r) x2 x3 x4 x5 x6 q := by
  unfold k1_pay1 nodeRow
  simp only [shapeCast_self]
  refine (matmul_bias dot_S5000x128_S128x128_S5000x128_1_0_0_1_n_n rfl rfl rfl rfl rfl rfl _ _ x6 _ _ r q).trans ?_
  refine congrArg (fun f => dense f x5 x6 q) (funext fun k => ?_)
  refine (max_zero _ r k).trans ?_
  refine congrArg (fun z => max z 0) ?_
  exact matmul2_bias dot_S5000x128_S128x128_S5000x128_1_0_0_1_n_n rfl rfl rfl rfl rfl rfl _ _ _ _ x4 _ _ r k

end Cert.KernelIdeal.Bodies

end
-- ==== Proof.EdgeRegion.lean ====
/-
  The messages array after the edge kernel's launch.

  The launch cuts the 800000 edges into 200 blocks of 4000 rows. At grid point `t` the kernel reads rows
  4000 t … 4000 t + 3999 of the two gathered arrays and the whole of every weight block and bias, and writes
  back rows 4000 t … 4000 t + 3999 of the messages. Each written row is the edge perceptron of the two read
  rows with the same number, so the block written at `t` is block `t` of `Layers.edgeMsg` of the whole
  arrays; the 200 blocks cover the messages array (row `e` lies in block `e / 4000`), so the array ends
  holding `Layers.edgeMsg`. Stated at whatever contents `V` the region is entered with.
-/
import proofs.«408097_j32521492365734_1_alg».proof.Proof.Gen.KernelIdeal.Frame
import proofs.«408097_j32521492365734_1_alg».proof.Proof.Bodies

set_option maxRecDepth 16384

noncomputable section

namespace Cert.KernelIdeal.EdgeRegion

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block `t`, every other window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

theorem t_lt (t : Fin cfg0.N) : t.val < 200 := by have := t.isLt; have h : cfg0.N = 200 := N_0; omega

/-- A weight block's window is the whole array at every point. -/
theorem blk2 (c : Dev nD) (t : Fin cfg0.N) : iblk0 V c 2 t = V c main_v6 := by
  funext y
  show V c main_v6 (((cfg0.win 2).blk t).view.emb y) = V c main_v6 y
  refine congrArg _ (funext fun a => Fin.ext ?_)
  obtain ⟨-, -, -, -, -, -, e0, e1, -⟩ := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk3 (c : Dev nD) (t : Fin cfg0.N) : iblk0 V c 3 t = V c main_v7 := by
  funext y
  show V c main_v7 (((cfg0.win 3).blk t).view.emb y) = V c main_v7 y
  refine congrArg _ (funext fun a => Fin.ext ?_)
  obtain ⟨-, -, -, -, -, -, -, -, e0, e1, -⟩ := idx_facts t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4 (c : Dev nD) (t : Fin cfg0.N) : iblk0 V c 4 t = V c main_arg3 := by
  funext y
  show V c main_arg3 (((cfg0.win 4).blk t).view.emb y) = V c main_arg3 y
  refine congrArg _ (funext fun a => Fin.ext ?_)
  obtain ⟨-, -, -, -, -, -, -, -, -, -, e0, -⟩ := idx_facts t
  match a with
  | ⟨0, _⟩ => show win0_4.index t (0 : Fin 1) * 128 + 1 * (y 0).val = (y 0).val; omega

theorem blk5 (c : Dev nD) (t : Fin cfg0.N) : iblk0 V c 5 t = V c main_arg4 := by
  funext y
  show V c main_arg4 (((cfg0.win 5).blk t).view.emb y) = V c main_arg4 y
  refine congrArg _ (funext fun a => Fin.ext ?_)
  obtain ⟨-, -, -, -, -, -, -, -, -, -, -, e0, e1, -⟩ := idx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk6 (c : Dev nD) (t : Fin cfg0.N) : iblk0 V c 6 t = V c main_arg5 := by
  funext y
  show V c main_arg5 (((cfg0.win 6).blk t).view.emb y) = V c main_arg5 y
  refine congrArg _ (funext fun a => Fin.ext ?_)
  obtain ⟨-, -, -, -, -, -, -, -, -, -, -, -, -, e0, -⟩ := idx_facts t
  match a with
  | ⟨0, _⟩ => show win0_6.index t (0 : Fin 1) * 128 + 1 * (y 0).val = (y 0).val; omega

theorem blk7 (c : Dev nD) (t : Fin cfg0.N) : iblk0 V c 7 t = V c main_arg6 := by
  funext y
  show V c main_arg6 (((cfg0.win 7).blk t).view.emb y) = V c main_arg6 y
  refine congrArg _ (funext fun a => Fin.ext ?_)
  obtain ⟨-, -, -, -, -, -, -, -, -, -, -, -, -, -, e0, e1, -⟩ := idx_facts t
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem blk8 (c : Dev nD) (t : Fin cfg0.N) : iblk0 V c 8 t = V c main_arg7 := by
  funext y
  show V c main_arg7 (((cfg0.win 8).blk t).view.emb y) = V c main_arg7 y
  refine congrArg _ (funext fun a => Fin.ext ?_)
  obtain ⟨-, -, -, -, -, -, -, -, -, -, -, -, -, -, -, -, e0⟩ := idx_facts t
  match a with
  | ⟨0, _⟩ => show win0_8.index t (0 : Fin 1) * 128 + 1 * (y 0).val = (y 0).val; omega

/-- Row `p` of the source block at point `t` is row `4000 t + p` of the gathered source array. -/
theorem rows0 (c : Dev nD) (t : Fin cfg0.N) (p : Fin 4000) (hb : t.val * 4000 + p.val < 800000) :
    row (n := 4000) (iblk0 V c 0 t) p = row (n := 800000) (V c main_v4) ⟨t.val * 4000 + p.val, hb⟩ := by
  funext k
  show V c main_v4 (((cfg0.win 0).blk t).view.emb (ix2 p k)) = V c main_v4 (ix2 ⟨t.val * 4000 + p.val, hb⟩ k)
  refine congrArg _ (funext fun a => Fin.ext ?_)
  obtain ⟨e0, e1, -⟩ := idx_facts t
  match a with
  | ⟨0, _⟩ => show win0_0.index t (0 : Fin 2) * 4000 + 1 * p.val = t.val * 4000 + p.val; omega
  | ⟨1, _⟩ => show win0_0.index t (1 : Fin 2) * 128 + 1 * k.val = k.val; omega

/-- Row `p` of the destination block at point `t` is row `4000 t + p` of the gathered destination array. -/
theorem rows1 (c : Dev nD) (t : Fin cfg0.N) (p : Fin 4000) (hb : t.val * 4000 + p.val < 800000) :
    row (n := 4000) (iblk0 V c 1 t) p = row (n := 800000) (V c main_v5) ⟨t.val * 4000 + p.val, hb⟩ := by
  funext k
  show V c main_v5 (((cfg0.win 1).blk t).view.emb (ix2 p k)) = V c main_v5 (ix2 ⟨t.val * 4000 + p.val, hb⟩ k)
  refine congrArg _ (funext fun a => Fin.ext ?_)
  obtain ⟨-, -, e0, e1, -⟩ := idx_facts t
  match a with
  | ⟨0, _⟩ => show win0_1.index t (0 : Fin 2) * 4000 + 1 * p.val = t.val * 4000 + p.val; omega
  | ⟨1, _⟩ => show win0_1.index t (1 : Fin 2) * 128 + 1 * k.val = k.val; omega

/-- The messages as one function of the arrays the region is entered with. -/
abbrev messages (c : Dev nD) : Rows 800000 :=
  edgeMsg (n := 800000) (V c main_v4) (V c main_v5) (V c main_v6) (V c main_v7) (V c main_arg3) (V c main_arg4) (V c main_arg5)
    (V c main_arg6) (V c main_arg7)

/-- What point `t` writes back is block `t` of the messages. -/
theorem flushed_eq (c : Dev nD) (t : Fin cfg0.N) :
    (dat0 V c).flushed 9 t = ((cfg0.win 9).blk t).view.read (Elt Ideal) (messages V c) := by
  show (cfg0.win 9).cut (grid0.coords t) ((dat0 V c).after 9 t) = _
  rw [after0_9]
  unfold out0_9
  rw [View.canon_unit_zero hz2]
  simp only [View.ld_unit_zero (S := S4000x128) hz2, View.ld_unit_zero (S := S128x128) hz2, View.ld_unit_zero (S := S128) hz1]
  rw [blk2, blk3, blk4, blk5, blk6, blk7, blk8]
  funext j
  obtain ⟨p, q, rfl⟩ : ∃ (p : Fin 4000) (q : Fin 128), j = ix2 p q := ⟨j 0, j 1, eq_ix2 (n0 := 4000) (n1 := 128) j⟩
  have hb : t.val * 4000 + p.val < 800000 := by have := t_lt t; omega
  have he : ((cfg0.win 9).blk t).view.emb (ix2 p q) = ix2 (⟨t.val * 4000 + p.val, hb⟩ : Fin 800000) q := by
    funext a; apply Fin.ext
    obtain ⟨-, -, -, -, e0, e1, -⟩ := idx_facts t
    match a with
    | ⟨0, _⟩ => show win0_9.index t (0 : Fin 2) * 4000 + 1 * p.val = t.val * 4000 + p.val; omega
    | ⟨1, _⟩ => show win0_9.index t (1 : Fin 2) * 128 + 1 * q.val = q.val; omega
  show k0_pay1 (F := Ideal) (k0_pay2 (iblk0 V c 0 t) (iblk0 V c 1 t) (V c main_v6) (V c main_v7) (V c main_arg3) (V c main_arg4) (V c main_arg5) (V c main_arg6))
      (k0_pay3 (V c main_arg7)) (ix2 p q) = messages V c (((cfg0.win 9).blk t).view.emb (ix2 p q))
  rw [he]
  refine (Bodies.edge_block (iblk0 V c 0 t) (iblk0 V c 1 t) (V c main_v6) (V c main_v7) (V c main_arg3) (V c main_arg4) (V c main_arg5) (V c main_arg6) (V c main_arg7) p q).trans ?_
  rw [rows0 V c t p hb, rows1 V c t p hb]
  rfl

/-- An index is in point `t`'s block iff each coordinate is in the block's range. -/
theorem mem_blk (t : Fin cfg0.N) (i : S800000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v8).slice (win0_9.rect t)).set ↔ _
  rw [View.set_slice_whole, Rect.mem_set_unit]
  exact Iff.rfl

/-- THE MESSAGES ARRAY after the launch: the edge perceptron of every pair of gathered rows. -/
theorem final (c : Dev nD) : (dat0 V c).arrAt 9 cfg0.N = messages V c :=
  (dat0 V c).arrAt_eq_of_cover 9 (messages V c) (fun t _ => flushed_eq V c t) fun i => by
    have hi0 : (i 0).val < 800000 := (i 0).isLt
    have hi1 : (i 1).val < 128 := (i 1).isLt
    have hN : cfg0.N = 200 := N_0
    refine ⟨⟨(i 0).val / 4000, by omega⟩, flush0_9 _, ?_⟩
    rw [mem_blk]
    obtain ⟨-, -, -, -, e0, e1, -⟩ := idx_facts ⟨(i 0).val / 4000, by omega⟩
    intro a
    match a with
    | ⟨0, _⟩ =>
      show win0_9.index ⟨(i 0).val / 4000, _⟩ (0 : Fin 2) * 4000 ≤ (i 0).val ∧ (i 0).val < win0_9.index ⟨(i 0).val / 4000, _⟩ (0 : Fin 2) * 4000 + 4000
      rw [e0]; show (i 0).val / 4000 * 4000 ≤ (i 0).val ∧ (i 0).val < (i 0).val / 4000 * 4000 + 4000; omega
    | ⟨1, _⟩ =>
      show win0_9.index ⟨(i 0).val / 4000, _⟩ (1 : Fin 2) * 128 ≤ (i 1).val ∧ (i 1).val < win0_9.index ⟨(i 0).val / 4000, _⟩ (1 : Fin 2) * 128 + 128
      rw [e1]; omega

end Cert.KernelIdeal.EdgeRegion

end
-- ==== Proof.NodeRegion.lean ====
/-
  The output array after the node kernel's launch.

  The launch cuts the 50000 nodes into 10 blocks of 5000 rows. At grid point `t` the kernel reads rows
  5000 t … 5000 t + 4999 of the node features and of the aggregated messages and the whole of every weight block and
  bias, and writes back the same rows of the output. Each written row is the node perceptron of the two read rows
  with the same number, so the block written at `t` is block `t` of `Layers.nodeOut` of the whole arrays; the 10
  blocks cover the output (row `v` lies in block `v / 5000`), so the array ends holding `Layers.nodeOut`. Stated at
  whatever contents `V` the region is entered with.
-/
import proofs.«408097_j32521492365734_1_alg».proof.Proof.Gen.KernelIdeal.Frame
import proofs.«408097_j32521492365734_1_alg».proof.Proof.Bodies

set_option maxRecDepth 16384

noncomputable section

namespace Cert.KernelIdeal.NodeRegion

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row windows sit at block `t`, every other window at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

theorem t_lt (t : Fin cfg1.N) : t.val < 10 := by have := t.isLt; have h : cfg1.N = 10 := N_1; omega

/-- A weight block's or a bias's window is the whole array at every point. -/
theorem blk2 (c : Dev nD) (t : Fin cfg1.N) : iblk1 V c 2 t = V c main_v12 := by
  funext y
  show V c main_v12 (((cfg1.win 2).blk t).view.emb y) = V c main_v12 y
  refine congrArg _ (funext fun a => Fin.ext ?_)
  obtain ⟨-, -, -, -, -, -, e0, e1, -⟩ := idx_facts t
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk3 (c : Dev nD) (t : Fin cfg1.N) : iblk1 V c 3 t = V c main_v13 := by
  funext y
  show V c main_v13 (((cfg1.win 3).blk t).view.emb y) = V c main_v13 y
  refine congrArg _ (funext fun a => Fin.ext ?_)
  obtain ⟨-, -, -, -, -, -, -, -, e0, e1, -⟩ := idx_facts t
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk4 (c : Dev nD) (t : Fin cfg1.N) : iblk1 V c 4 t = V c main_arg9 := by
  funext y
  show V c main_arg9 (((cfg1.win 4).blk t).view.emb y) = V c main_arg9 y
  refine congrArg _ (funext fun a => Fin.ext ?_)
  obtain ⟨-, -, -, -, -, -, -, -, -, -, e0, -⟩ := idx_facts t
  match a with
  | ⟨0, _⟩ => show win1_4.index t (0 : Fin 1) * 128 + 1 * (y 0).val = (y 0).val; omega

theorem blk5 (c : Dev nD) (t : Fin cfg1.N) : iblk1 V c 5 t = V c main_arg10 := by
  funext y
  show V c main_arg10 (((cfg1.win 5).blk t).view.emb y) = V c main_arg10 y
  refine congrArg _ (funext fun a => Fin.ext ?_)
  obtain ⟨-, -, -, -, -, -, -, -, -, -, -, e0, e1, -⟩ := idx_facts t
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem blk6 (c : Dev nD) (t : Fin cfg1.N) : iblk1 V c 6 t = V c main_arg11 := by
  funext y
  show V c main_arg11 (((cfg1.win 6).blk t).view.emb y) = V c main_arg11 y
  refine congrArg _ (funext fun a => Fin.ext ?_)
  obtain ⟨-, -, -, -, -, -, -, -, -, -, -, -, -, e0⟩ := idx_facts t
  match a with
  | ⟨0, _⟩ => show win1_6.index t (0 : Fin 1) * 128 + 1 * (y 0).val = (y 0).val; omega

/-- Row `p` of the feature block at point `t` is row `5000 t + p` of the node features. -/
theorem rows0 (c : Dev nD) (t : Fin cfg1.N) (p : Fin 5000) (hb : t.val * 5000 + p.val < 50000) :
    row (n := 5000) (iblk1 V c 0 t) p = row (n := 50000) (V c main_arg0) ⟨t.val * 5000 + p.val, hb⟩ := by
  funext k
  show V c main_arg0 (((cfg1.win 0).blk t).view.emb (ix2 p k)) = V c main_arg0 (ix2 ⟨t.val * 5000 + p.val, hb⟩ k)
  refine congrArg _ (funext fun a => Fin.ext ?_)
  obtain ⟨e0, e1, -⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row `p` of the aggregate block at point `t` is row `5000 t + p` of the aggregated messages. -/
theorem rows1 (c : Dev nD) (t : Fin cfg1.N) (p : Fin 5000) (hb : t.val * 5000 + p.val < 50000) :
    row (n := 5000) (iblk1 V c 1 t) p = row (n := 50000) (V c main_v11) ⟨t.val * 5000 + p.val, hb⟩ := by
  funext k
  show V c main_v11 (((cfg1.win 1).blk t).view.emb (ix2 p k)) = V c main_v11 (ix2 ⟨t.val * 5000 + p.val, hb⟩ k)
  refine congrArg _ (funext fun a => Fin.ext ?_)
  obtain ⟨-, -, e0, e1, -⟩ := idx_facts t
  match a with
  | ⟨0, _⟩ => show win1_1.index t (0 : Fin 2) * 5000 + 1 * p.val = t.val * 5000 + p.val; omega
  | ⟨1, _⟩ => show win1_1.index t (1 : Fin 2) * 128 + 1 * k.val = k.val; omega

/-- The output as one function of the arrays the region is entered with. -/
abbrev output (c : Dev nD) : Rows 50000 :=
  nodeOut (n := 50000) (V c main_arg0) (V c main_v11) (V c main_v12) (V c main_v13) (V c main_arg9) (V c main_arg10) (V c main_arg11)

/-- What point `t` writes back is block `t` of the output. -/
theorem flushed_eq (c : Dev nD) (t : Fin cfg1.N) :
    (dat1 V c).flushed 7 t = ((cfg1.win 7).blk t).view.read (Elt Ideal) (output V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1]
  rw [blk2, blk3, blk4, blk5, blk6]
  funext j
  obtain ⟨p, q, rfl⟩ : ∃ (p : Fin 5000) (q : Fin 128), j = ix2 p q := ⟨j 0, j 1, eq_ix2 (n0 := 5000) (n1 := 128) j⟩
  have hb : t.val * 5000 + p.val < 50000 := by have := t_lt t; omega
  have he : ((cfg1.win 7).blk t).view.emb (ix2 p q) = ix2 (⟨t.val * 5000 + p.val, hb⟩ : Fin 50000) q := by
    funext a; apply Fin.ext
    obtain ⟨-, -, -, -, e0, e1, -⟩ := idx_facts t
    match a with
    | ⟨0, _⟩ => show win1_7.index t (0 : Fin 2) * 5000 + 1 * p.val = t.val * 5000 + p.val; omega
    | ⟨1, _⟩ => show win1_7.index t (1 : Fin 2) * 128 + 1 * q.val = q.val; omega
  show k1_pay1 (F := Ideal) (iblk1 V c 0 t) (iblk1 V c 1 t) (V c main_v12) (V c main_v13) (V c main_arg9) (V c main_arg10) (V c main_arg11) (ix2 p q)
      = output V c (((cfg1.win 7).blk t).view.emb (ix2 p q))
  rw [he]
  refine (Bodies.node_block (iblk1 V c 0 t) (iblk1 V c 1 t) (V c main_v12) (V c main_v13) (V c main_arg9) (V c main_arg10) (V c main_arg11) p q).trans ?_
  rw [rows0 V c t p hb, rows1 V c t p hb]
  rfl

/-- An index is in point `t`'s block iff each coordinate is in the block's range. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v14).slice (win1_7.rect t)).set ↔ _
  rw [View.set_slice_whole, Rect.mem_set_unit]
  exact Iff.rfl

/-- THE OUTPUT ARRAY after the launch: the node perceptron of every node's features and aggregate. -/
theorem final (c : Dev nD) : (dat1 V c).arrAt 7 cfg1.N = output V c :=
  (dat1 V c).arrAt_eq_of_cover 7 (output V c) (fun t _ => flushed_eq V c t) fun i => by
    have hi0 : (i 0).val < 50000 := (i 0).isLt
    have hi1 : (i 1).val < 128 := (i 1).isLt
    have hN : cfg1.N = 10 := N_1
    refine ⟨⟨(i 0).val / 5000, by omega⟩, flush1_7 _, ?_⟩
    rw [mem_blk]
    obtain ⟨-, -, -, -, e0, e1, -⟩ := idx_facts ⟨(i 0).val / 5000, by omega⟩
    intro a
    match a with
    | ⟨0, _⟩ =>
      show win1_7.index ⟨(i 0).val / 5000, _⟩ (0 : Fin 2) * 5000 ≤ (i 0).val ∧ (i 0).val < win1_7.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win1_7.index ⟨(i 0).val / 5000, _⟩ (1 : Fin 2) * 128 ≤ (i 1).val ∧ (i 1).val < win1_7.index ⟨(i 0).val / 5000, _⟩ (1 : Fin 2) * 128 + 128
      rw [e1]; omega

end Cert.KernelIdeal.NodeRegion

end
-- ==== Proof.Closed.lean ====
/-
  The host operations around the two launches, as functions of the arrays they read.

  The two index rows are the two rows of the edge-index array. Each `take` wraps a negative index by the table's
  length, gathers the node rows at the wrapped indices and keeps a gathered row only where its index is in bounds
  (a NaN row elsewhere). The weight matrices of the two first layers are cut into their upper and lower halves.
  Between the launches the messages are added up per destination node, from zero.
-/
import proofs.«408097_j32521492365734_1_alg».proof.Proof.Gen.KernelIdeal.Launch
import Idealize.ShloMosaic.PureOps.Ideal

set_option maxRecDepth 16384

noncomputable section

namespace Cert.KernelIdeal.Closed

open Cert.KernelIdeal Cert.KernelIdeal.Gen
open Idealize.ShloMosaic Idealize.ShloMosaic.TcCoe Idealize.ShloMosaic.StableHlo Idealize.SL.Sem

/-- The source and the destination row of the edge-index array, as vectors of 800000 words. -/
def srcIdx (a1 : IVec S2x800000 32) : IVec S800000 32 :=
  shapeCast _ (extractStridedSlice S1x800000 ![0, 0] a1 slices_S2x800000_S1x800000_0_0) shapeCasts_S1x800000_S800000
def dstIdx (a1 : IVec S2x800000 32) : IVec S800000 32 :=
  shapeCast _ (extractStridedSlice S1x800000 ![1, 0] a1 slices_S2x800000_S1x800000_1_0) shapeCasts_S1x800000_S800000

/-- An index vector with negative entries wrapped by the table's length, as a column of start indices. -/
def startIdx (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The node rows at those start indices. -/
def gathered (a0 : FVec Ideal S50000x128 .f32) (x : IVec S800000 32) : FVec Ideal S800000x128 .f32 :=
  Host.gather gather_S50000x128_S800000x1_S800000x128_1_0_n_n_0_1_1128 a0 (startIdx x)

/-- Where a start index is in bounds (at least 0 and at most 49999), row by row. -/
def inBounds (x : IVec S800000 32) : IVec S800000x128 1 :=
  broadcastInDim S800000x128 ![0] bcast_S800000_S800000x128_0
    (Host.reduce IntOp.andi
      (andi (cmpi .sge (startIdx x) (broadcastInDim S800000x1 ![] bcast_S_S800000x1 (constantI S_ 32 0#32)))
        (cmpi .sle (startIdx x) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- `jnp.take` at its default mode: the gathered row where the index is in bounds, a NaN row elsewhere. -/
def taken (a0 : FVec Ideal S50000x128 .f32) (x : IVec S800000 32) : FVec Ideal S800000x128 .f32 :=
  select (inBounds x) (gathered a0 x) (broadcastInDim S800000x128 ![] bcast_S_S800000x128 (constant S_ .f32 0x7FC00000#32))

/-- The messages added up per destination node, from zero. -/
def aggregated (x : IVec S800000 32) (msgs : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x) msgs

/-- The upper and the lower half of a stacked 256 × 128 weight matrix, as the host slices them. -/
def upperHalf (W : FVec Ideal S256x128 .f32) : FVec Ideal S128x128 .f32 :=
  extractStridedSlice S128x128 ![0, 0] W slices_S256x128_S128x128_0_0
def lowerHalf (W : FVec Ideal S256x128 .f32) : FVec Ideal S128x128 .f32 :=
  extractStridedSlice S128x128 ![128, 0] W slices_S256x128_S128x128_128_0

end Cert.KernelIdeal.Closed

end
-- ==== Proof.LibTypedRef.lean ====
/-
  A value written through a typed reference and read back through it is the value: the two transports along the
  reference's type equation cancel.
-/
import Idealize.ShloMosaic.Lib.StableHlo

noncomputable section

namespace Cert.LibTypedRef

open Idealize.ShloMosaic Idealize.ShloMosaic.StableHlo

theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibTypedRef

end
-- ==== Proof.TakeSrc.lean ====
/-
  The first `take` of the program: the 23 host operations that gather the node rows at the source indices.
-/
import proofs.«408097_j32521492365734_1_alg».proof.Proof.Closed
import proofs.«408097_j32521492365734_1_alg».proof.Proof.LibTypedRef

set_option maxRecDepth 16384

noncomputable section

namespace Cert.KernelIdeal.Closed.take_src

open Cert.KernelIdeal Cert.KernelIdeal.Gen Cert.KernelIdeal.Closed
open Idealize.ShloMosaic Idealize.ShloMosaic.TcCoe Idealize.ShloMosaic.StableHlo Idealize.SL.Sem

/-- The typed references of the stretch's two operands and of its result transport nothing: each buffer's type is
    the value's. -/
theorem ofBuf_idx (h1 h2 h3) (v : (main_v1 : Ref sig .tc).ty.Contents (Elt Ideal)) :
    (TRef.of (sig := sig) (T := ⟨S800000, .i32⟩) main_v1 h1 h2 h3).ofBuf v = v := rfl
theorem ofBuf_table (h1 h2 h3) (v : (main_arg0 : Ref sig .tc).ty.Contents (Elt Ideal)) :
    (TRef.of (sig := sig) (T := ⟨S50000x128, .f32⟩) main_arg0 h1 h2 h3).ofBuf v = v := rfl
theorem toBuf_result (h1 h2 h3) (v : (⟨S800000x128, .f32⟩ : BufTy).Contents (Elt Ideal)) :
    (TRef.of (sig := sig) (T := ⟨S800000x128, .f32⟩) main_v4 h1 h2 h3).toBuf v = v := rfl

end Cert.KernelIdeal.Closed.take_src

namespace Cert.KernelIdeal.Closed

open Cert.KernelIdeal Cert.KernelIdeal.Gen
open Idealize.ShloMosaic Idealize.ShloMosaic.TcCoe Idealize.ShloMosaic.StableHlo Idealize.SL.Sem

set_option maxHeartbeats 4000000 in
/-- From whatever contents `B` the stretch starts at, it leaves in its result the rows of `B`'s node features taken at
    `B`'s index vector. -/
theorem take_src (B : Valuation τ sig (Elt Ideal)) : StableHlo.after hostOps0_1 B (Proc.devRef .tc main_v4)
    = taken (B (Proc.devRef .tc main_arg0)) (B (Proc.devRef .tc main_v1)) := by
  dsimp only [hostOps0_1]
  after_results
  simp only [LibTypedRef.ofBuf_toBuf, take_src.ofBuf_idx, take_src.ofBuf_table, take_src.toBuf_result]
  rfl

end Cert.KernelIdeal.Closed

end
-- ==== Proof.TakeDst.lean ====
/-
  The second `take` of the program: the 23 host operations that gather the node rows at the destination indices.
-/
import proofs.«408097_j32521492365734_1_alg».proof.Proof.Closed
import proofs.«408097_j32521492365734_1_alg».proof.Proof.LibTypedRef

set_option maxRecDepth 16384

noncomputable section

namespace Cert.KernelIdeal.Closed.take_dst

open Cert.KernelIdeal Cert.KernelIdeal.Gen Cert.KernelIdeal.Closed
open Idealize.ShloMosaic Idealize.ShloMosaic.TcCoe Idealize.ShloMosaic.StableHlo Idealize.SL.Sem

/-- The typed references of the stretch's two operands and of its result transport nothing: each buffer's type is
    the value's. -/
theorem ofBuf_idx (h1 h2 h3) (v : (main_v3 : Ref sig .tc).ty.Contents (Elt Ideal)) :
    (TRef.of (sig := sig) (T := ⟨S800000, .i32⟩) main_v3 h1 h2 h3).ofBuf v = v := rfl
theorem ofBuf_table (h1 h2 h3) (v : (main_arg0 : Ref sig .tc).ty.Contents (Elt Ideal)) :
    (TRef.of (sig := sig) (T := ⟨S50000x128, .f32⟩) main_arg0 h1 h2 h3).ofBuf v = v := rfl
theorem toBuf_result (h1 h2 h3) (v : (⟨S800000x128, .f32⟩ : BufTy).Contents (Elt Ideal)) :
    (TRef.of (sig := sig) (T := ⟨S800000x128, .f32⟩) main_v5 h1 h2 h3).toBuf v = v := rfl

end Cert.KernelIdeal.Closed.take_dst

namespace Cert.KernelIdeal.Closed

open Cert.KernelIdeal Cert.KernelIdeal.Gen
open Idealize.ShloMosaic Idealize.ShloMosaic.TcCoe Idealize.ShloMosaic.StableHlo Idealize.SL.Sem

set_option maxHeartbeats 4000000 in
/-- From whatever contents `B` the stretch starts at, it leaves in its result the rows of `B`'s node features taken at
    `B`'s index vector. -/
theorem take_dst (B : Valuation τ sig (Elt Ideal)) : StableHlo.after hostOps0_2 B (Proc.devRef .tc main_v5)
    = taken (B (Proc.devRef .tc main_arg0)) (B (Proc.devRef .tc main_v3)) := by
  dsimp only [hostOps0_2]
  after_results
  simp only [LibTypedRef.ofBuf_toBuf, take_dst.ofBuf_idx, take_dst.ofBuf_table, take_dst.toBuf_result]
  rfl

end Cert.KernelIdeal.Closed

end
-- ==== Proof.Program.lean ====
/-
  One round of message passing as one function of the twelve arguments, in the kernel program's spelling: take the
  node rows at the source and at the destination indices, run the edge perceptron on each pair of rows, add the
  messages up per destination node, run the node perceptron on each node's features and sum.
-/
import proofs.«408097_j32521492365734_1_alg».proof.Proof.Closed
import proofs.«408097_j32521492365734_1_alg».proof.Proof.Layers

noncomputable section

namespace Cert.KernelIdeal.Closed

open Cert.KernelIdeal Cert.Layers Idealize.ShloMosaic

/-- The whole program as one function of its twelve arguments. -/
def program (a0 : FVec Ideal S50000x128 .f32) (a1 : IVec S2x800000 32) (a2 : FVec Ideal S256x128 .f32) (a3 : FVec Ideal S128 .f32)
    (a4 : FVec Ideal S128x128 .f32) (a5 : FVec Ideal S128 .f32) (a6 : FVec Ideal S128x128 .f32) (a7 : FVec Ideal S128 .f32)
    (a8 : FVec Ideal S256x128 .f32) (a9 : FVec Ideal S128 .f32) (a10 : FVec Ideal S128x128 .f32) (a11 : FVec Ideal S128 .f32) :
    FVec Ideal S50000x128 .f32 :=
  nodeOut (n := 50000) a0
    (aggregated (dstIdx a1)
      (edgeMsg (n := 800000) (taken a0 (srcIdx a1)) (taken a0 (dstIdx a1)) (upperHalf a2) (lowerHalf a2) a3 a4 a5 a6 a7))
    (upperHalf a8) (lowerHalf a8) a9 a10 a11

end Cert.KernelIdeal.Closed

end
-- ==== Proof.Boundaries.lean ====
/-
  The contents of the kernel program's buffers at each boundary between its stretches of host operations and its two
  launches, read back to the launch memory, and with them the program's result as one term of its arguments.

  No host operation and no launch writes an argument, so an argument reads the launch memory at every boundary. The
  index rows, the two taken arrays and the weight halves are what the stretch that computes them makes of the
  arguments; the first launch leaves the messages (the edge perceptron of the two taken arrays), the stretch between the
  launches their sums per destination node, and the second launch the node perceptron of the node features and those
  sums: the result.
-/
import proofs.«408097_j32521492365734_1_alg».proof.Proof.KernelRun
import proofs.«408097_j32521492365734_1_alg».proof.Proof.EdgeRegion
import proofs.«408097_j32521492365734_1_alg».proof.Proof.NodeRegion
import proofs.«408097_j32521492365734_1_alg».proof.Proof.TakeSrc
import proofs.«408097_j32521492365734_1_alg».proof.Proof.TakeDst
import proofs.«408097_j32521492365734_1_alg».proof.Proof.Program

set_option maxRecDepth 16384

noncomputable section

namespace Cert.KernelIdeal.Closed

open Cert.KernelIdeal Cert.KernelIdeal.Gen Cert.Layers
open Idealize.ShloMosaic Idealize.ShloMosaic.TcCoe Idealize.ShloMosaic.StableHlo Idealize.SL.Sem

/-! ## Each stretch of host operations, from whatever contents `B` it starts at -/

section Stretches

variable (B : Valuation τ sig (Elt Ideal))

theorem idx_src : StableHlo.after hostOps0 B (Proc.devRef .tc main_v1) = srcIdx (B (Proc.devRef .tc main_arg1)) := by
  dsimp only [hostOps0]; after_results <;> rfl
theorem idx_dst : StableHlo.after hostOps0 B (Proc.devRef .tc main_v3) = dstIdx (B (Proc.devRef .tc main_arg1)) := by
  dsimp only [hostOps0]; after_results <;> rfl
theorem half_up : StableHlo.after hostOps0_3 B (Proc.devRef .tc main_v6) = upperHalf (B (Proc.devRef .tc main_arg2)) := by
  dsimp only [hostOps0_3]; after_results <;> rfl
theorem half_lo : StableHlo.after hostOps0_3 B (Proc.devRef .tc main_v7) = lowerHalf (B (Proc.devRef .tc main_arg2)) := by
  dsimp only [hostOps0_3]; after_results <;> rfl
theorem sums : StableHlo.after hostOps1 B (Proc.devRef .tc main_v11) = aggregated (B (Proc.devRef .tc main_v3)) (B (Proc.devRef .tc main_v8)) := by
  dsimp only [hostOps1]; after_results <;> rfl
theorem nhalf_up : StableHlo.after hostOps1 B (Proc.devRef .tc main_v12) = upperHalf (B (Proc.devRef .tc main_arg8)) := by
  dsimp only [hostOps1]; after_results <;> rfl
theorem nhalf_lo : StableHlo.after hostOps1 B (Proc.devRef .tc main_v13) = lowerHalf (B (Proc.devRef .tc main_arg8)) := by
  dsimp only [hostOps1]; after_results <;> rfl

set_option maxHeartbeats 4000000 in
theorem keep1_v3 : StableHlo.after hostOps0_1 B (Proc.devRef .tc main_v3) = B (Proc.devRef .tc main_v3) := by
  dsimp only [hostOps0_1]; after_results
set_option maxHeartbeats 4000000 in
theorem keep2_v3 : StableHlo.after hostOps0_2 B (Proc.devRef .tc main_v3) = B (Proc.devRef .tc main_v3) := by
  dsimp only [hostOps0_2]; after_results
set_option maxHeartbeats 4000000 in
theorem keep2_v4 : StableHlo.after hostOps0_2 B (Proc.devRef .tc main_v4) = B (Proc.devRef .tc main_v4) := by
  dsimp only [hostOps0_2]; after_results
theorem keep3_v3 : StableHlo.after hostOps0_3 B (Proc.devRef .tc main_v3) = B (Proc.devRef .tc main_v3) := by
  dsimp only [hostOps0_3]; after_results
theorem keep3_v4 : StableHlo.after hostOps0_3 B (Proc.devRef .tc main_v4) = B (Proc.devRef .tc main_v4) := by
  dsimp only [hostOps0_3]; after_results
theorem keep3_v5 : StableHlo.after hostOps0_3 B (Proc.devRef .tc main_v5) = B (Proc.devRef .tc main_v5) := by
  dsimp only [hostOps0_3]; after_results
theorem keepH_arg0 : StableHlo.after hostOps1 B (Proc.devRef .tc main_arg0) = B (Proc.devRef .tc main_arg0) := by
  dsimp only [hostOps1]; after_results
theorem keepH_arg9 : StableHlo.after hostOps1 B (Proc.devRef .tc main_arg9) = B (Proc.devRef .tc main_arg9) := by
  dsimp only [hostOps1]; after_results
theorem keepH_arg10 : StableHlo.after hostOps1 B (Proc.devRef .tc main_arg10) = B (Proc.devRef .tc main_arg10) := by
  dsimp only [hostOps1]; after_results
theorem keepH_arg11 : StableHlo.after hostOps1 B (Proc.devRef .tc main_arg11) = B (Proc.devRef .tc main_arg11) := by
  dsimp only [hostOps1]; after_results

end Stretches

variable (m : (ℓ : Loc nD τ sig) → Buf (Elt Ideal) ℓ) (ρ : Dev nD → PrngReg)

/-! ## The arguments at each boundary: the launch memory -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results

theorem W2_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  dsimp only [hostOps0_1, hostOps0]
  after_results

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results

theorem W4_arg0 (c : Dev nD) : W4 m ρ c (Proc.devRef .tc main_arg0) = m ((c : Thread nD τ).loc main_arg0) := by
  show StableHlo.after hostOps0_3 (StableHlo.after hostOps0_2 (StableHlo.after hostOps0_1 (StableHlo.after hostOps0 (W0 m ρ c)))) (Proc.devRef .tc main_arg0) = _
  dsimp only [hostOps0_3, hostOps0_2, hostOps0_1, hostOps0]
  after_results

theorem W4_arg3 (c : Dev nD) : W4 m ρ c (Proc.devRef .tc main_arg3) = m ((c : Thread nD τ).loc main_arg3) := by
  show StableHlo.after hostOps0_3 (StableHlo.after hostOps0_2 (StableHlo.after hostOps0_1 (StableHlo.after hostOps0 (W0 m ρ c)))) (Proc.devRef .tc main_arg3) = _
  dsimp only [hostOps0_3, hostOps0_2, hostOps0_1, hostOps0]
  after_results

theorem W4_arg4 (c : Dev nD) : W4 m ρ c (Proc.devRef .tc main_arg4) = m ((c : Thread nD τ).loc main_arg4) := by
  show StableHlo.after hostOps0_3 (StableHlo.after hostOps0_2 (StableHlo.after hostOps0_1 (StableHlo.after hostOps0 (W0 m ρ c)))) (Proc.devRef .tc main_arg4) = _
  dsimp only [hostOps0_3, hostOps0_2, hostOps0_1, hostOps0]
  after_results

theorem W4_arg5 (c : Dev nD) : W4 m ρ c (Proc.devRef .tc main_arg5) = m ((c : Thread nD τ).loc main_arg5) := by
  show StableHlo.after hostOps0_3 (StableHlo.after hostOps0_2 (StableHlo.after hostOps0_1 (StableHlo.after hostOps0 (W0 m ρ c)))) (Proc.devRef .tc main_arg5) = _
  dsimp only [hostOps0_3, hostOps0_2, hostOps0_1, hostOps0]
  after_results

theorem W4_arg6 (c : Dev nD) : W4 m ρ c (Proc.devRef .tc main_arg6) = m ((c : Thread nD τ).loc main_arg6) := by
  show StableHlo.after hostOps0_3 (StableHlo.after hostOps0_2 (StableHlo.after hostOps0_1 (StableHlo.after hostOps0 (W0 m ρ c)))) (Proc.devRef .tc main_arg6) = _
  dsimp only [hostOps0_3, hostOps0_2, hostOps0_1, hostOps0]
  after_results

theorem W4_arg7 (c : Dev nD) : W4 m ρ c (Proc.devRef .tc main_arg7) = m ((c : Thread nD τ).loc main_arg7) := by
  show StableHlo.after hostOps0_3 (StableHlo.after hostOps0_2 (StableHlo.after hostOps0_1 (StableHlo.after hostOps0 (W0 m ρ c)))) (Proc.devRef .tc main_arg7) = _
  dsimp only [hostOps0_3, hostOps0_2, hostOps0_1, hostOps0]
  after_results

theorem W4_arg8 (c : Dev nD) : W4 m ρ c (Proc.devRef .tc main_arg8) = m ((c : Thread nD τ).loc main_arg8) := by
  show StableHlo.after hostOps0_3 (StableHlo.after hostOps0_2 (StableHlo.after hostOps0_1 (StableHlo.after hostOps0 (W0 m ρ c)))) (Proc.devRef .tc main_arg8) = _
  dsimp only [hostOps0_3, hostOps0_2, hostOps0_1, hostOps0]
  after_results

theorem W4_arg9 (c : Dev nD) : W4 m ρ c (Proc.devRef .tc main_arg9) = m ((c : Thread nD τ).loc main_arg9) := by
  show StableHlo.after hostOps0_3 (StableHlo.after hostOps0_2 (StableHlo.after hostOps0_1 (StableHlo.after hostOps0 (W0 m ρ c)))) (Proc.devRef .tc main_arg9) = _
  dsimp only [hostOps0_3, hostOps0_2, hostOps0_1, hostOps0]
  after_results

theorem W4_arg10 (c : Dev nD) : W4 m ρ c (Proc.devRef .tc main_arg10) = m ((c : Thread nD τ).loc main_arg10) := by
  show StableHlo.after hostOps0_3 (StableHlo.after hostOps0_2 (StableHlo.after hostOps0_1 (StableHlo.after hostOps0 (W0 m ρ c)))) (Proc.devRef .tc main_arg10) = _
  dsimp only [hostOps0_3, hostOps0_2, hostOps0_1, hostOps0]
  after_results

theorem W4_arg11 (c : Dev nD) : W4 m ρ c (Proc.devRef .tc main_arg11) = m ((c : Thread nD τ).loc main_arg11) := by
  show StableHlo.after hostOps0_3 (StableHlo.after hostOps0_2 (StableHlo.after hostOps0_1 (StableHlo.after hostOps0 (W0 m ρ c)))) (Proc.devRef .tc main_arg11) = _
  dsimp only [hostOps0_3, hostOps0_2, hostOps0_1, hostOps0]
  after_results

/-! ## What the stretches before the first launch leave -/

theorem W1_v1 (c : Dev nD) : W1 m ρ c (Proc.devRef .tc main_v1) = srcIdx (m ((c : Thread nD τ).loc main_arg1)) := idx_src (W0 m ρ c)
theorem W1_v3 (c : Dev nD) : W1 m ρ c (Proc.devRef .tc main_v3) = dstIdx (m ((c : Thread nD τ).loc main_arg1)) := idx_dst (W0 m ρ c)
theorem W2_v3 (c : Dev nD) : W2 m ρ c (Proc.devRef .tc main_v3) = dstIdx (m ((c : Thread nD τ).loc main_arg1)) := (keep1_v3 (W1 m ρ c)).trans (W1_v3 m ρ c)
theorem W2_v4 (c : Dev nD) : W2 m ρ c (Proc.devRef .tc main_v4) = taken (m ((c : Thread nD τ).loc main_arg0)) (srcIdx (m ((c : Thread nD τ).loc main_arg1))) := by
  refine (take_src (W1 m ρ c)).trans ?_
  rw [W1_arg0 m ρ c, W1_v1 m ρ c]
theorem W3_v3 (c : Dev nD) : W3 m ρ c (Proc.devRef .tc main_v3) = dstIdx (m ((c : Thread nD τ).loc main_arg1)) := (keep2_v3 (W2 m ρ c)).trans (W2_v3 m ρ c)
theorem W3_v4 (c : Dev nD) : W3 m ρ c (Proc.devRef .tc main_v4) = taken (m ((c : Thread nD τ).loc main_arg0)) (srcIdx (m ((c : Thread nD τ).loc main_arg1))) := (keep2_v4 (W2 m ρ c)).trans (W2_v4 m ρ c)
theorem W3_v5 (c : Dev nD) : W3 m ρ c (Proc.devRef .tc main_v5) = taken (m ((c : Thread nD τ).loc main_arg0)) (dstIdx (m ((c : Thread nD τ).loc main_arg1))) := by
  refine (take_dst (W2 m ρ c)).trans ?_
  rw [W2_arg0 m ρ c, W2_v3 m ρ c]
theorem W4_v3 (c : Dev nD) : W4 m ρ c (Proc.devRef .tc main_v3) = dstIdx (m ((c : Thread nD τ).loc main_arg1)) := (keep3_v3 (W3 m ρ c)).trans (W3_v3 m ρ c)
theorem W4_v4 (c : Dev nD) : W4 m ρ c (Proc.devRef .tc main_v4) = taken (m ((c : Thread nD τ).loc main_arg0)) (srcIdx (m ((c : Thread nD τ).loc main_arg1))) := (keep3_v4 (W3 m ρ c)).trans (W3_v4 m ρ c)
theorem W4_v5 (c : Dev nD) : W4 m ρ c (Proc.devRef .tc main_v5) = taken (m ((c : Thread nD τ).loc main_arg0)) (dstIdx (m ((c : Thread nD τ).loc main_arg1))) := (keep3_v5 (W3 m ρ c)).trans (W3_v5 m ρ c)
theorem W4_v6 (c : Dev nD) : W4 m ρ c (Proc.devRef .tc main_v6) = upperHalf (m ((c : Thread nD τ).loc main_arg2)) := by
  refine (half_up (W3 m ρ c)).trans ?_
  rw [W3_arg2 m ρ c]
theorem W4_v7 (c : Dev nD) : W4 m ρ c (Proc.devRef .tc main_v7) = lowerHalf (m ((c : Thread nD τ).loc main_arg2)) := by
  refine (half_lo (W3 m ρ c)).trans ?_
  rw [W3_arg2 m ρ c]

/-! ## After the first launch -/

/-- The messages: the edge perceptron of the two taken arrays. -/
theorem W5_v8 (c : Dev nD) : W5 m ρ c (Proc.devRef .tc main_v8)
    = edgeMsg (n := 800000) (taken (m ((c : Thread nD τ).loc main_arg0)) (srcIdx (m ((c : Thread nD τ).loc main_arg1)))) (taken (m ((c : Thread nD τ).loc main_arg0)) (dstIdx (m ((c : Thread nD τ).loc main_arg1)))) (upperHalf (m ((c : Thread nD τ).loc main_arg2))) (lowerHalf (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 9).trans ?_
  refine (EdgeRegion.final (V4 m ρ) c).trans ?_
  show edgeMsg (n := 800000) (W4 m ρ c (Proc.devRef .tc main_v4)) (W4 m ρ c (Proc.devRef .tc main_v5)) (W4 m ρ c (Proc.devRef .tc main_v6)) (W4 m ρ c (Proc.devRef .tc main_v7))
    (W4 m ρ c (Proc.devRef .tc main_arg3)) (W4 m ρ c (Proc.devRef .tc main_arg4)) (W4 m ρ c (Proc.devRef .tc main_arg5)) (W4 m ρ c (Proc.devRef .tc main_arg6)) (W4 m ρ c (Proc.devRef .tc main_arg7)) = _
  rw [W4_v4 m ρ c, W4_v5 m ρ c, W4_v6 m ρ c, W4_v7 m ρ c, W4_arg3 m ρ c, W4_arg4 m ρ c, W4_arg5 m ρ c, W4_arg6 m ρ c, W4_arg7 m ρ c]

theorem W5_v3 (c : Dev nD) : W5 m ρ c (Proc.devRef .tc main_v3) = dstIdx (m ((c : Thread nD τ).loc main_arg1)) := (W5_of_ne m ρ c main_v3 (by decide)).trans (W4_v3 m ρ c)
theorem W5_arg0 (c : Dev nD) : W5 m ρ c (Proc.devRef .tc main_arg0) = m ((c : Thread nD τ).loc main_arg0) := (W5_of_ne m ρ c main_arg0 (by decide)).trans (W4_arg0 m ρ c)
theorem W5_arg8 (c : Dev nD) : W5 m ρ c (Proc.devRef .tc main_arg8) = m ((c : Thread nD τ).loc main_arg8) := (W5_of_ne m ρ c main_arg8 (by decide)).trans (W4_arg8 m ρ c)
theorem W5_arg9 (c : Dev nD) : W5 m ρ c (Proc.devRef .tc main_arg9) = m ((c : Thread nD τ).loc main_arg9) := (W5_of_ne m ρ c main_arg9 (by decide)).trans (W4_arg9 m ρ c)
theorem W5_arg10 (c : Dev nD) : W5 m ρ c (Proc.devRef .tc main_arg10) = m ((c : Thread nD τ).loc main_arg10) := (W5_of_ne m ρ c main_arg10 (by decide)).trans (W4_arg10 m ρ c)
theorem W5_arg11 (c : Dev nD) : W5 m ρ c (Proc.devRef .tc main_arg11) = m ((c : Thread nD τ).loc main_arg11) := (W5_of_ne m ρ c main_arg11 (by decide)).trans (W4_arg11 m ρ c)

/-! ## What the second launch is entered with, and the result -/

theorem W6_v11 (c : Dev nD) : W6 m ρ c (Proc.devRef .tc main_v11)
    = aggregated (dstIdx (m ((c : Thread nD τ).loc main_arg1))) (edgeMsg (n := 800000) (taken (m ((c : Thread nD τ).loc main_arg0)) (srcIdx (m ((c : Thread nD τ).loc main_arg1)))) (taken (m ((c : Thread nD τ).loc main_arg0)) (dstIdx (m ((c : Thread nD τ).loc main_arg1)))) (upperHalf (m ((c : Thread nD τ).loc main_arg2))) (lowerHalf (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7))) := by
  refine (sums (W5 m ρ c)).trans ?_
  rw [W5_v3 m ρ c, W5_v8 m ρ c]
theorem W6_v12 (c : Dev nD) : W6 m ρ c (Proc.devRef .tc main_v12) = upperHalf (m ((c : Thread nD τ).loc main_arg8)) := by
  refine (nhalf_up (W5 m ρ c)).trans ?_
  rw [W5_arg8 m ρ c]
theorem W6_v13 (c : Dev nD) : W6 m ρ c (Proc.devRef .tc main_v13) = lowerHalf (m ((c : Thread nD τ).loc main_arg8)) := by
  refine (nhalf_lo (W5 m ρ c)).trans ?_
  rw [W5_arg8 m ρ c]
theorem W6_arg0 (c : Dev nD) : W6 m ρ c (Proc.devRef .tc main_arg0) = m ((c : Thread nD τ).loc main_arg0) := (keepH_arg0 (W5 m ρ c)).trans (W5_arg0 m ρ c)
theorem W6_arg9 (c : Dev nD) : W6 m ρ c (Proc.devRef .tc main_arg9) = m ((c : Thread nD τ).loc main_arg9) := (keepH_arg9 (W5 m ρ c)).trans (W5_arg9 m ρ c)
theorem W6_arg10 (c : Dev nD) : W6 m ρ c (Proc.devRef .tc main_arg10) = m ((c : Thread nD τ).loc main_arg10) := (keepH_arg10 (W5 m ρ c)).trans (W5_arg10 m ρ c)
theorem W6_arg11 (c : Dev nD) : W6 m ρ c (Proc.devRef .tc main_arg11) = m ((c : Thread nD τ).loc main_arg11) := (keepH_arg11 (W5 m ρ c)).trans (W5_arg11 m ρ c)

/-- THE RESULT of the kernel program: `program` of the twelve argument arrays as launched. -/
theorem result (c : Dev nD) : W7 m ρ c (Proc.devRef .tc main_v14)
    = program (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W7_arr m ρ c 7).trans ?_
  refine (NodeRegion.final (V6 m ρ) c).trans ?_
  show nodeOut (n := 50000) (W6 m ρ c (Proc.devRef .tc main_arg0)) (W6 m ρ c (Proc.devRef .tc main_v11)) (W6 m ρ c (Proc.devRef .tc main_v12)) (W6 m ρ c (Proc.devRef .tc main_v13))
    (W6 m ρ c (Proc.devRef .tc main_arg9)) (W6 m ρ c (Proc.devRef .tc main_arg10)) (W6 m ρ c (Proc.devRef .tc main_arg11)) = _
  rw [W6_arg0 m ρ c, W6_v11 m ρ c, W6_v12 m ρ c, W6_v13 m ρ c, W6_arg9 m ρ c, W6_arg10 m ρ c, W6_arg11 m ρ c]
  rfl

end Cert.KernelIdeal.Closed

end
-- ==== Proof.RefValue.lean ====
/-
  The reference's stages as the two perceptrons.

  The reference computes the messages with three host products on the array of the 800000 joined rows [h[src], h[dst]]
  and the output with two on the 50000 joined rows [h, aggregate]. Read entry by entry, its messages are the edge
  perceptron of the two gathered arrays with the first weight matrix split into its upper and lower half, and its
  output the node perceptron of the node features and the aggregate with the first node weight matrix split the
  same way.
-/
import proofs.«408097_j32521492365734_1_alg».proof.Proof.Gen.ReferenceIdeal.Read
import proofs.«408097_j32521492365734_1_alg».proof.Proof.LibDense

noncomputable section

namespace Cert.ReferenceIdeal.RefValue

open Cert.ReferenceIdeal Cert.ReferenceIdeal.Gen Cert.ReferenceIdeal.Read Cert.Layers Cert.LibDense
open Idealize.ShloMosaic Idealize.ShloMosaic.ValueIdx

/-- The reference's messages are the edge perceptron of its two gathered arrays. -/
theorem messages_eq (x0 : FVec Ideal S50000x128 .f32) (x1 : IVec S2x800000 32) (x2 : FVec Ideal S256x128 .f32)
    (x3 : FVec Ideal S128 .f32) (x4 : FVec Ideal S128x128 .f32) (x5 : FVec Ideal S128 .f32) (x6 : FVec Ideal S128x128 .f32)
    (x7 : FVec Ideal S128 .f32) :
    val_main_v32 (F := Ideal) x0 x1 x2 x3 x4 x5 x6 x7
      = edgeMsg (n := 800000) (val_main_v10 (F := Ideal) x0 x1) (val_main_v17 (F := Ideal) x0 x1) (upper x2) (lower x2) x3 x4 x5 x6 x7 := by
  funext i
  obtain ⟨r, q, rfl⟩ : ∃ (r : Fin 800000) (q : Fin 128), i = ix2 r q := ⟨i 0, i 1, eq_ix2 (n0 := 800000) (n1 := 128) i⟩
  rw [edgeMsg_apply]
  unfold val_main_v32 val_main_v31 val_main_v30 val_main_v29 val_main_v28 val_main_call1_v0 val_main_call1_cst val_main_v27
    val_main_v26 val_main_v25 val_main_v24 val_main_v23 val_main_call0_v0 val_main_call0_cst val_main_v22 val_main_v21 val_main_v20
    val_main_v19 val_main_v18 edgeRow
  refine (dot_bias dot_S800000x128_S128x128_S800000x128_1_0_0_1_n_n rfl rfl rfl rfl rfl rfl _ x6 x7 _ _ r q).trans ?_
  refine congrArg (fun f => dense f x6 x7 q) (funext fun k => ?_)
  refine (max_zero_host _ _ r k).trans ?_
  refine congrArg (fun z => max z 0) ?_
  refine (dot_bias dot_S800000x128_S128x128_S800000x128_1_0_0_1_n_n rfl rfl rfl rfl rfl rfl _ x4 x5 _ _ r k).trans ?_
  refine congrArg (fun f => dense f x4 x5 k) (funext fun j => ?_)
  refine (max_zero_host _ _ r j).trans ?_
  refine congrArg (fun z => max z 0) ?_
  exact dot_concat_bias dot_S800000x256_S256x128_S800000x128_1_0_0_1_n_n rfl rfl rfl rfl rfl rfl _ _ x2 x3 _ _ _ r j

/-- The reference's result is the node perceptron of the node features and its aggregate. -/
theorem output_eq (x0 : FVec Ideal S50000x128 .f32) (x1 : IVec S2x800000 32) (x2 : FVec Ideal S256x128 .f32)
    (x3 : FVec Ideal S128 .f32) (x4 : FVec Ideal S128x128 .f32) (x5 : FVec Ideal S128 .f32) (x6 : FVec Ideal S128x128 .f32)
    (x7 : FVec Ideal S128 .f32) (x8 : FVec Ideal S256x128 .f32) (x9 : FVec Ideal S128 .f32) (x10 : FVec Ideal S128x128 .f32)
    (x11 : FVec Ideal S128 .f32) :
    val_main_v45 (F := Ideal) x0 x1 x2 x3 x4 x5 x6 x7 x8 x9 x10 x11
      = nodeOut (n := 50000) x0 (val_main_v35 (F := Ideal) x0 x1 x2 x3 x4 x5 x6 x7) (upper x8) (lower x8) x9 x10 x11 := by
  funext i
  obtain ⟨r, q, rfl⟩ : ∃ (r : Fin 50000) (q : Fin 128), i = ix2 r q := ⟨i 0, i 1, eq_ix2 (n0 := 50000) (n1 := 128) i⟩
  rw [nodeOut_apply]
  unfold val_main_v45 val_main_v44 val_main_v43 val_main_v42 val_main_v41 val_main_call2_v0 val_main_call2_cst val_main_v40
    val_main_v39 val_main_v38 val_main_v37 val_main_v36 nodeRow
  refine (dot_bias dot_S50000x128_S128x128_S50000x128_1_0_0_1_n_n rfl rfl rfl rfl rfl rfl _ x10 x11 _ _ r q).trans ?_
  refine congrArg (fun f => dense f x10 x11 q) (funext fun k => ?_)
  refine (max_zero_host _ _ r k).trans ?_
  refine congrArg (fun z => max z 0) ?_
  exact dot_concat_bias dot_S50000x256_S256x128_S50000x128_1_0_0_1_n_n rfl rfl rfl rfl rfl rfl _ _ x8 x9 _ _ _ r k

end Cert.ReferenceIdeal.RefValue

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.Bridge.lean ====
/-
  The kernel program's function of the arguments is the reference's, when every edge index is a node number.

  The two programs differ in three places. (1) The kernel's `take` keeps a gathered row only where its index is in
  bounds and puts a NaN row elsewhere, where the reference's indexing gathers whatever row the clamped index names:
  with every index in [0, 50000) the wrapped index is the index itself, the bounds test is true on every row, and
  the two gathers are one. (2) The kernel cuts each first-layer weight matrix into halves on the host and multiplies
  the two row arrays by them separately, where the reference multiplies the joined rows by the whole matrix: the
  sum over 256 columns split at 128 (`RefValue`, `LibDense`). (3) The kernel rounds the products' operands to bf16,
  the identity on extended reals. Everything else — the index rows, the gather, the scatter-add, the biases — is
  the same operations on the same operands.
-/
import proofs.«408097_j32521492365734_1_alg».proof.Proof.Program
import proofs.«408097_j32521492365734_1_alg».proof.Proof.RefValue
import proofs.«408097_j32521492365734_1_alg».proof.Proof.LibAllOnes
import Idealize.ShloMosaic.Lib.ValueLayout

noncomputable section

namespace Cert.Bridge

open Cert.KernelIdeal Cert.KernelIdeal.Gen Cert.Layers
open Idealize.ShloMosaic Idealize.ShloMosaic.ValueIdx

/-- The host's upper-half slice of a stacked matrix is `Layers.upper`. -/
theorem upperHalf_eq (W : FVec Ideal S256x128 .f32) : Closed.upperHalf W = upper W := by
  funext i
  obtain ⟨k, q, rfl⟩ : ∃ (k q : Fin 128), i = ix2 k q := ⟨i 0, i 1, eq_ix2 (n0 := 128) (n1 := 128) i⟩
  unfold Closed.upperHalf
  refine (slice2_axis0_eq 0 W _ k q).trans ?_
  exact congrArg W (funext fun a => Fin.ext (by
    match a with
    | ⟨0, _⟩ => show 0 + k.val = k.val; omega
    | ⟨1, _⟩ => rfl))

/-- The host's lower-half slice of a stacked matrix is `Layers.lower`. -/
theorem lowerHalf_eq (W : FVec Ideal S256x128 .f32) : Closed.lowerHalf W = lower W := by
  funext i
  obtain ⟨k, q, rfl⟩ : ∃ (k q : Fin 128), i = ix2 k q := ⟨i 0, i 1, eq_ix2 (n0 := 128) (n1 := 128) i⟩
  unfold Closed.lowerHalf
  refine (slice2_axis0_eq 128 W _ k q).trans ?_
  exact congrArg W (funext fun a => Fin.ext (by
    match a with
    | ⟨0, _⟩ => rfl
    | ⟨1, _⟩ => rfl))

/-- With every index below 50000 the wrapped start index is the index, so it is below 50000 too. -/
theorem start_lt (x : IVec S800000 32) (hx : ∀ e, (x e).toNat < 50000) (j : S800000x1.Idx) :
    (Closed.startIdx x j).toNat < 50000 := by
  unfold Closed.startIdx broadcastInDim
  show (Scalar.select (IntOp.cmpi .slt (x _) 0#32) (IntOp.addi (x _) 50000#32) (x _)).toNat < 50000
  rw [LibAllOnes.slt_zero _ (Nat.lt_trans (hx _) (by decide : 50000 < 2 ^ 31)), select_zero]
  exact hx _

/-- Then the bounds test is true on every row. -/
theorem in_bounds (x : IVec S800000 32) (hx : ∀ e, (x e).toNat < 50000) (i : S800000x128.Idx) : Closed.inBounds x i = 1#1 := by
  unfold Closed.inBounds
  show Host.reduce IntOp.andi _ _ reducesTo_S800000x1_S800000_d1 h_S_ _ = 1#1
  refine LibAllOnes.reduce_andi_ones _ _ _ _ _ (fun _ => rfl) (fun j => ?_)
  have hs := start_lt x hx j
  show IntOp.andi (IntOp.cmpi .sge (Closed.startIdx x j) 0#32) (IntOp.cmpi .sle (Closed.startIdx x j) 49999#32) = 1#1
  rw [LibAllOnes.sge_zero _ (by omega), LibAllOnes.sle_ofNat _ 49999 (by decide) (by omega)]
  rfl

/-- So `take` is the plain gather. -/
theorem taken_eq (a0 : FVec Ideal S50000x128 .f32) (x : IVec S800000 32) (hx : ∀ e, (x e).toNat < 50000) :
    Closed.taken a0 x = Closed.gathered a0 x := by
  funext i
  unfold Closed.taken
  show Scalar.select (Closed.inBounds x i) (Closed.gathered a0 x i) _ = _
  rw [in_bounds x hx i, select_one]

/-- Both index rows are rows of the edge-index array. -/
theorem src_lt (a1 : IVec S2x800000 32) (h : ∀ i, (a1 i).toNat < 50000) (e : S800000.Idx) : (Closed.srcIdx a1 e).toNat < 50000 := by
  unfold Closed.srcIdx shapeCast extractStridedSlice; exact h _
theorem dst_lt (a1 : IVec S2x800000 32) (h : ∀ i, (a1 i).toNat < 50000) (e : S800000.Idx) : (Closed.dstIdx a1 e).toNat < 50000 := by
  unfold Closed.dstIdx shapeCast extractStridedSlice; exact h _

/-- The shared operations, program by program: the same terms. -/
theorem gathered_src (a0 : FVec Ideal S50000x128 .f32) (a1 : IVec S2x800000 32) :
    Closed.gathered a0 (Closed.srcIdx a1) = Cert.ReferenceIdeal.Read.val_main_v10 (F := Ideal) a0 a1 := rfl
theorem gathered_dst (a0 : FVec Ideal S50000x128 .f32) (a1 : IVec S2x800000 32) :
    Closed.gathered a0 (Closed.dstIdx a1) = Cert.ReferenceIdeal.Read.val_main_v17 (F := Ideal) a0 a1 := rfl
theorem aggregated_eq (a1 : IVec S2x800000 32) (msgs : FVec Ideal S800000x128 .f32) :
    Closed.aggregated (Closed.dstIdx a1) msgs
      = Host.scatterAdd Cert.ReferenceIdeal.scatter_S50000x128_S800000x1_S800000x128_1_0_0_1 (Cert.ReferenceIdeal.Read.val_main_v33 (F := Ideal))
          (Cert.ReferenceIdeal.Read.val_main_v34 (F := Ideal) a1) msgs := rfl

/-- THE TWO PROGRAMS ARE ONE FUNCTION of arguments whose edge indices are node numbers. -/
theorem program_eq (a0 : FVec Ideal S50000x128 .f32) (a1 : IVec S2x800000 32) (a2 : FVec Ideal S256x128 .f32) (a3 : FVec Ideal S128 .f32)
    (a4 : FVec Ideal S128x128 .f32) (a5 : FVec Ideal S128 .f32) (a6 : FVec Ideal S128x128 .f32) (a7 : FVec Ideal S128 .f32)
    (a8 : FVec Ideal S256x128 .f32) (a9 : FVec Ideal S128 .f32) (a10 : FVec Ideal S128x128 .f32) (a11 : FVec Ideal S128 .f32)
    (h : ∀ i, (a1 i).toNat < 50000) :
    Closed.program a0 a1 a2 a3 a4 a5 a6 a7 a8 a9 a10 a11
      = Cert.ReferenceIdeal.Read.val_main_v45 (F := Ideal) a0 a1 a2 a3 a4 a5 a6 a7 a8 a9 a10 a11 := by
  rw [Cert.ReferenceIdeal.RefValue.output_eq]
  unfold Closed.program
  rw [upperHalf_eq a8, lowerHalf_eq a8, upperHalf_eq a2, lowerHalf_eq a2, taken_eq a0 _ (src_lt a1 h), taken_eq a0 _ (dst_lt a1 h),
    gathered_src, gathered_dst, aggregated_eq]
  refine congrArg (fun g => nodeOut (n := 50000) a0 g (upper a8) (lower a8) a9 a10 a11) ?_
  unfold Cert.ReferenceIdeal.Read.val_main_v35
  rw [Cert.ReferenceIdeal.RefValue.messages_eq]

end Cert.Bridge

end
-- ==== Proof.IndexRange.lean ====
/-
  The precondition read back: every edge index is a node number.

  The precondition's last two conjuncts say that every word of the edge-index array is at least zero and below
  50000 as a signed number (each a `jnp.all` of a comparison). Read back element by element, every edge index is
  below 50000 unsigned. The finiteness conjuncts before them are not used: the two programs agree on every
  extended real.
-/
import proofs.«408097_j32521492365734_1_alg».proof.Pre_finite_inputs
import proofs.«408097_j32521492365734_1_alg».proof.Proof.Gen.Pre_finite_inputs
import proofs.«408097_j32521492365734_1_alg».proof.Proof.LibAllOnes

noncomputable section

namespace Cert.IndexRange

open Cert.Pre_finite_inputs Idealize.ShloMosaic

instance : Subsingleton S_.Idx := ⟨fun a b => funext fun d => d.elim0⟩

variable {F : FTy → Type} [FloatOps F]

/-- The last part of the precondition: the conjunction so far, one more finiteness test, and the two index tests. -/
theorem part3 (a1 : IVec S2x800000 32) (v48 : IVec S_ 1) (v49 v50 : FVec F S128 .f32)
    (h : fn_part3 (F := F) a1 v48 v49 v50 = fun _ => 1#1) (i : S2x800000.Idx) : (a1 i).toNat < 50000 := by
  have e := congrFun h ValueIdx.ix0
  unfold fn_part3 at e
  dsimp only at e
  obtain ⟨e1, e60⟩ := IntOp.andi_eq_one.1 e
  obtain ⟨e2, e56⟩ := IntOp.andi_eq_one.1 e1
  have g0 := Host.reduce_andi_all _ _ _ _ _ e56 i
  have g1 := Host.reduce_andi_all _ _ _ _ _ e60 i
  exact LibAllOnes.toNat_lt_of_signed _ 50000 (by decide) g0 g1

/-- Under the precondition every edge index is below 50000. -/
theorem idx_lt (a0 : FVec F S50000x128 .f32) (a1 : IVec S2x800000 32) (a2 : FVec F S256x128 .f32) (a3 : FVec F S128 .f32)
    (a4 : FVec F S128x128 .f32) (a5 : FVec F S128 .f32) (a6 : FVec F S128x128 .f32) (a7 : FVec F S128 .f32)
    (a8 : FVec F S256x128 .f32) (a9 : FVec F S128 .f32) (a10 : FVec F S128x128 .f32) (a11 : FVec F S128 .f32)
    (h : fn (F := F) a0 a1 a2 a3 a4 a5 a6 a7 a8 a9 a10 a11 = fun _ => 1#1) (i : S2x800000.Idx) : (a1 i).toNat < 50000 := by
  unfold fn at h
  dsimp only at h
  unfold fn_part1 at h
  dsimp only at h
  unfold fn_part2 at h
  dsimp only at h
  exact part3 a1 _ _ _ h i

end Cert.IndexRange

end
-- ==== Proof.lean ====
/-
  One round of message passing on a graph (gather the node rows at both ends of every edge, a three-layer perceptron
  on each pair of rows, the messages added up per destination node, a two-layer perceptron on each node's features and
  sum) as two tiled kernels with bf16 matrix products, against the plain jnp reference — equal on the extended reals
  whenever every edge index is a node number (the statement's added precondition, 0 ≤ edge_index < 50000: outside it the
  reference itself indexes out of range, where the kernel's `take` fills NaN rows).

  The frames of the two kernel programs are the generated ones; the reference's frame is its generated run with the
  result dropped. Nothing was rewritten between the kernel and its idealization. For the values: the kernel program's
  run is read back boundary by boundary to `Closed.program` of its arguments (`Closed.result`), the reference's run is
  `val_main_v45` of its arguments, and the two are one function when the indices are in range (`Bridge.program_eq`), which
  the precondition says (`IndexRange.idx_lt`). The finiteness of the float inputs is not used.
-/
import proofs.«408097_j32521492365734_1_alg».proof.Defs
import proofs.«408097_j32521492365734_1_alg».proof.Proof.Gen.Kernel
import proofs.«408097_j32521492365734_1_alg».proof.Proof.Gen.Kernel.Frame
import proofs.«408097_j32521492365734_1_alg».proof.Proof.Gen.KernelIdeal
import proofs.«408097_j32521492365734_1_alg».proof.Proof.Gen.KernelIdeal.Frame
import proofs.«408097_j32521492365734_1_alg».proof.Proof.Gen.ReferenceIdeal
import proofs.«408097_j32521492365734_1_alg».proof.Proof.Gen.ReferenceIdeal.Run
import proofs.«408097_j32521492365734_1_alg».proof.Proof.Gen.ReferenceIdeal.Read
import proofs.«408097_j32521492365734_1_alg».proof.Proof.Gen.Pre_finite_inputs
import proofs.«408097_j32521492365734_1_alg».proof.Proof.KernelRun
import proofs.«408097_j32521492365734_1_alg».proof.Proof.Boundaries
import proofs.«408097_j32521492365734_1_alg».proof.Proof.Bridge
import proofs.«408097_j32521492365734_1_alg».proof.Proof.IndexRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Closed.program` of the kernel program's arguments. -/
theorem algebraic : Cert.algebraic_KernelIdeal_ReferenceIdeal := by
  intro m ρ m' ρ' hpre hagree
  refine ⟨fun c => Cert.KernelIdeal.Closed.program (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.KernelIdeal.Closed.result m ρ c), (h c).2⟩)
      (Cert.KernelIdeal.GenRun.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v45_eq]
    obtain ⟨e0, e1, e2, e3, e4, e5, e6, e7, e8, e9, e10, e11⟩ := hagree c
    rw [e0, e1, e2, e3, e4, e5, e6, e7, e8, e9, e10, e11]
    exact (Cert.Bridge.program_eq _ _ _ _ _ _ _ _ _ _ _ _ (Cert.IndexRange.idx_lt _ _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
